-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x2 : Shape := ⟨2, ![1, 2]⟩
abbrev S512x2 : Shape := ⟨2, ![512, 2]⟩

abbrev nBuf : Space → Nat
  | .hbm => 108
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S512, .f32⟩
  | .hbm, ⟨94, _⟩ => ⟨S100000x1, .i32⟩
  | .hbm, ⟨95, _⟩ => ⟨S512, .f32⟩
  | .hbm, ⟨96, _⟩ => ⟨S_, .f32⟩
  | .hbm, ⟨97, _⟩ => ⟨S512x128, .f32⟩
  | .hbm, ⟨98, _⟩ => ⟨S100000x1, .i32⟩
  | .hbm, ⟨99, _⟩ => ⟨S512x128, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512x1, .f32⟩
  | .hbm, ⟨104, _⟩ => ⟨S512x128, .f32⟩
  | .hbm, ⟨105, _⟩ => ⟨S512x128, .f32⟩
  | .hbm, ⟨106, _⟩ => ⟨S1x2, .f32⟩
  | .hbm, ⟨107, _⟩ => ⟨S512x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S512x128, .f32⟩
  | .local _ .vmem, ⟨21, _⟩ => ⟨S128x2, .f32⟩
  | .local _ .vmem, ⟨22, _⟩ => ⟨S1x2, .f32⟩
  | .local _ .vmem, ⟨23, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := .none

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.whole (Memref.whole main_v75) false false (stage4_0 0) (sem4_0 0) (Memref.isWhole_whole _) (hstage4_0 0)

abbrev win4_1 : Pipeline.Window sig grid4 :=
  Pipeline.Window.whole (Memref.whole main_arg7) false false (stage4_1 0) (sem4_1 0) (Memref.isWhole_whole _) (hstage4_1 0)

abbrev win4_2 : Pipeline.Window sig grid4 :=
  Pipeline.Window.whole (Memref.whole main_v76) false false (stage4_2 0) (sem4_2 0) (Memref.isWhole_whole _) (hstage4_2 0)

abbrev win4_3 : Pipeline.Window sig grid4 :=
  Pipeline.Window.whole (Memref.whole main_v77) true false (stage4_3 0) (sem4_3 0) (Memref.isWhole_whole _) (hstage4_3 0)

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x2 : Shape := ⟨2, ![512, 2]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S512, .f32⟩
  | .hbm, ⟨102, _⟩ => ⟨S100000x1, .i32⟩
  | .hbm, ⟨103, _⟩ => ⟨S512, .f32⟩
  | .hbm, ⟨104, _⟩ => ⟨S_, .f32⟩
  | .hbm, ⟨105, _⟩ => ⟨S512x128, .f32⟩
  | .hbm, ⟨106, _⟩ => ⟨S100000x1, .i32⟩
  | .hbm, ⟨107, _⟩ => ⟨S512x128, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x128, .f32⟩
  | .hbm, ⟨113, _⟩ => ⟨S512x128, .f32⟩
  | .hbm, ⟨114, _⟩ => ⟨S512x2, .f32⟩
  | .hbm, ⟨115, _⟩ => ⟨S1x2, .f32⟩
  | .hbm, ⟨116, _⟩ => ⟨S512x2, .f32⟩
  | .hbm, ⟨117, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.Spec.lean ====
/-
  The function both programs compute, stage by stage, over whole arrays.

  A graph of 100000 nodes and 1600000 directed edges is given as two rows of node numbers; every node
  also gets a self loop, so there are 1700000 edges `e` with a source `src e` and a destination `dst e`.
  With `deg v` the number of edges that end in `v` and `dis v = deg v ^ (-1/2)` (zero where `deg v = 0`),
  an edge weighs `nrm e = dis (src e) * dis (dst e)`.  One convolution layer takes node features `x`,
  forms `h = x · W`, sums `nrm e * h (src e)` over the edges ending in each node, adds a bias and clamps
  at zero from below.  After two layers the rows of each of 512 graphs are averaged (the sum over the
  graph's nodes divided by their number, or by one for an empty graph) and a last affine map gives two
  scores per graph.

  The index bookkeeping (a negative node number counts from the end, the gather, the scatter-add) is
  kept as the tensor operations themselves: both programs apply the same ones, so nothing here opens
  them.  Every stage is stated for any float instance.
-/
import proofs.«162025_j21337397526641_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- A whole array of a shape and element type, as a tensor value holds it. -/
abbrev Arr (F : FTy → Type) (S : Shape) (e : EltTy) : Type := (⟨S, e⟩ : BufTy).Contents (Elt F)

/-- Row `r` of the edge list followed by the node numbers `0 … 99999`: the edges' ends with the self loops. -/
def endsOf (r : Fin 2) (ei : Arr F S2x1600000 .i32) : Arr F S1700000 .i32 :=
  match r with
  | 0 => concatenate S1700000 0 [⟨S1600000, shapeCast S1600000 (extractStridedSlice S1x1600000 ![0, 0] ei slices_S2x1600000_S1x1600000_0_0) shapeCasts_S1x1600000_S1600000⟩,
      ⟨S100000, iotaInDim S100000 32 0⟩] concatenates_S1600000_S100000_S1700000_d0
  | 1 => concatenate S1700000 0 [⟨S1600000, shapeCast S1600000 (extractStridedSlice S1x1600000 ![1, 0] ei slices_S2x1600000_S1x1600000_1_0) shapeCasts_S1x1600000_S1600000⟩,
      ⟨S100000, iotaInDim S100000 32 0⟩] concatenates_S1600000_S100000_S1700000_d0

/-- The edges' sources. -/
abbrev srcIdx (ei : Arr F S2x1600000 .i32) : Arr F S1700000 .i32 := endsOf 0 ei
/-- The edges' destinations. -/
abbrev dstIdx (ei : Arr F S2x1600000 .i32) : Arr F S1700000 .i32 := endsOf 1 ei

/-- Node numbers as a column of gather indices, a negative one counted from the end (`+ 100000`). -/
def wrapCol (ix : Arr F S1700000 .i32) : Arr F S1700000x1 .i32 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- `deg ^ (-1/2)` per node, zero where no edge ends: `deg` the scatter-add of ones at the destinations. -/
def degInvSqrt (dst : Arr F S1700000 .i32) : Arr F S100000 .f32 :=
  select
    (cmpf (F := F) .ogt
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 dst)
        (broadcastInDim S1700000 ![] bcast_S_S1700000 (constant (F := F) S_ .f32 0x3F800000#32)))
      (broadcastInDim S100000 ![] bcast_S_S100000 (constant (F := F) S_ .f32 0x00000000#32)))
    (Host.rsqrt (maximumf
      (Host.scatterAdd scatter_S100000_S1700000x1_S1700000_n_0_0_1
        (broadcastInDim S100000 ![] bcast_S_S100000 (constant (F := F) S_ .f32 0x00000000#32))
        (broadcastInDim S1700000x1 ![0] bcast_S1700000_S1700000x1_0 dst)
        (broadcastInDim S1700000 ![] bcast_S_S1700000 (constant (F := F) S_ .f32 0x3F800000#32)))
      (broadcastInDim S100000 ![] bcast_S_S100000 (constant (F := F) S_ .f32 0x3F800000#32))))
    (broadcastInDim S100000 ![] bcast_S_S100000 (id (constant (F := F) S_ .f32 0x00000000#32)))

/-- An edge's weight: the product of `deg ^ (-1/2)` at its two ends. -/
def edgeNorm (src dst : Arr F S1700000 .i32) : Arr F S1700000 .f32 :=
  mulf (Host.gather gather_S100000_S1700000x1_S1700000_n_0_n_n_0_1_1 (degInvSqrt dst) (wrapCol src))
    (Host.gather gather_S100000_S1700000x1_S1700000_n_0_n_n_0_1_1 (degInvSqrt dst) (wrapCol dst))

/-- Message passing: row `h (src e)` scaled by the edge's weight, summed into row `dst e`. -/
def aggregate (h : Arr F S100000x128 .f32) (src dst : Arr F S1700000 .i32) (nrm : Arr F S1700000 .f32) : Arr F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf (Host.gather gather_S100000x128_S1700000x1_S1700000x128_1_0_n_n_0_1_1128 h (wrapCol src))
      (broadcastInDim S1700000x128 ![0, 1] bcast_S1700000x1_S1700000x128_0_1
        (broadcastInDim S1700000x1 ![0] bcast_S1700000_S1700000x1_0 nrm)))

/-- The dense transform `x · W` of all node rows. -/
def lin (x : Arr F S100000x128 .f32) (w : Arr F S128x128 .f32) : Arr F S100000x128 .f32 :=
  Host.dotGeneral dot_S100000x128_S128x128_S100000x128_1_0_0_1_n_n none x w

/-- Add the bias to every row and clamp at zero from below. -/
def biasRelu (a : Arr F S100000x128 .f32) (b : Arr F S128 .f32) : Arr F S100000x128 .f32 :=
  maximumf
    (addf a (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- Per graph: the sum of its nodes' rows over the number of its nodes (at least one). -/
def meanPool (x : Arr F S100000x128 .f32) (batch : Arr F S100000 .i32) : Arr F S512x128 .f32 :=
  Host.divf
    (Host.scatterAdd scatter_S512x128_S100000x1_S100000x128_1_0_0_1
      (broadcastInDim S512x128 ![] bcast_S_S512x128 (constant (F := F) S_ .f32 0x00000000#32))
      (broadcastInDim S100000x1 ![0] bcast_S100000_S100000x1_0 batch) x)
    (broadcastInDim S512x128 ![0, 1] bcast_S512x1_S512x128_0_1
      (broadcastInDim S512x1 ![0] bcast_S512_S512x1_0
        (maximumf
          (Host.scatterAdd scatter_S512_S100000x1_S100000_n_0_0_1
            (broadcastInDim S512 ![] bcast_S_S512 (constant (F := F) S_ .f32 0x00000000#32))
            (broadcastInDim S100000x1 ![0] bcast_S100000_S100000x1_0 batch)
            (broadcastInDim S100000 ![] bcast_S_S100000 (constant (F := F) S_ .f32 0x3F800000#32)))
          (broadcastInDim S512 ![] bcast_S_S512 (constant (F := F) S_ .f32 0x3F800000#32)))))

/-- The classifier head: `p · W + b` per graph. -/
def head (p : Arr F S512x128 .f32) (w : Arr F S128x2 .f32) (b : Arr F S2 .f32) : Arr F S512x2 .f32 :=
  addf (Host.dotGeneral dot_S512x128_S128x2_S512x2_1_0_0_1_n_n none p w)
    (broadcastInDim S512x2 ![0, 1] bcast_S1x2_S512x2_0_1 (broadcastInDim S1x2 ![1] bcast_S2_S1x2_1 b))

/-- One convolution layer over fixed edges and weights. -/
def layer (x : Arr F S100000x128 .f32) (src dst : Arr F S1700000 .i32) (nrm : Arr F S1700000 .f32)
    (w : Arr F S128x128 .f32) (b : Arr F S128 .f32) : Arr F S100000x128 .f32 :=
  biasRelu (aggregate (lin x w) src dst nrm) b

/-- The whole network: two layers, the mean over each graph, the head. -/
def gcn (x : Arr F S100000x128 .f32) (ei : Arr F S2x1600000 .i32) (batch : Arr F S100000 .i32)
    (w1 : Arr F S128x128 .f32) (b1 : Arr F S128 .f32) (w2 : Arr F S128x128 .f32) (b2 : Arr F S128 .f32)
    (wl : Arr F S128x2 .f32) (bl : Arr F S2 .f32) : Arr F S512x2 .f32 :=
  head (meanPool
    (layer (layer x (srcIdx ei) (dstIdx ei) (edgeNorm (srcIdx ei) (dstIdx ei)) w1 b1)
      (srcIdx ei) (dstIdx ei) (edgeNorm (srcIdx ei) (dstIdx ei)) w2 b2) batch) wl bl

end Cert.Gcn

end
-- ==== Proof.Stretch.lean ====
/-
  The kernel program's stretches of host operations between its regions, each read at the buffers a later
  item uses, from ANY starting contents `Wp`: the edges' ends and weights after the first stretch, the
  aggregated messages and the bias as one row after a layer's stretch, the per-graph means and the head's
  bias as one row after the last.  Stated for any float instance: nothing here opens a gather, a
  scatter-add or a quotient; each side is the same nest of tensor operations.
-/
import proofs.«162025_j21337397526641_1_alg».proof.Proof.Gen.KernelIdeal.Launch
import proofs.«162025_j21337397526641_1_alg».proof.Proof.Gen.ReferenceIdeal
import proofs.«162025_j21337397526641_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]
variable (Wp : Valuation τ sig (Elt F))

/-! ## Before the first region: the edges' ends with the self loops, and the edges' weights -/

/-- The contents after the three stretches before the first region. -/
abbrev pre : Valuation τ sig (Elt F) := after hostOps0_2 (after hostOps0_1 (after hostOps0 Wp))

/-- The edges' sources: row 0 of the edge list, then every node once. -/
theorem pre_src : pre Wp (Proc.devRef .tc main_v3) = Cert.Gcn.srcIdx (F := F) (Wp (Proc.devRef .tc main_arg1)) := by
  unfold pre
  after_results
  rfl

/-- The edges' destinations: row 1 of the edge list, then every node once. -/
theorem pre_dst : pre Wp (Proc.devRef .tc main_v6) = Cert.Gcn.dstIdx (F := F) (Wp (Proc.devRef .tc main_arg1)) := by
  unfold pre
  after_results
  rfl

set_option maxHeartbeats 4000000 in
/-- The edges' weights: the product of `deg ^ (-1/2)` at the two ends. -/
theorem pre_nrm : pre Wp (Proc.devRef .tc main_v31)
    = Cert.Gcn.edgeNorm (F := F) (Cert.Gcn.srcIdx (F := F) (Wp (Proc.devRef .tc main_arg1))) (Cert.Gcn.dstIdx (F := F) (Wp (Proc.devRef .tc main_arg1))) := by
  unfold pre
  after_results_simp
  first | rfl | (simp only [TRef.ofBuf, TRef.toBuf, cast_eq]; rfl)

/-! ## A layer's stretch: gather the transformed rows, weigh, scatter-add; and the bias as one row -/

set_option maxHeartbeats 2000000 in
/-- After the first layer's stretch the messages are aggregated from the transformed rows the stretch found. -/
theorem agg1 : after hostOps1 Wp (Proc.devRef .tc main_v45)
    = Cert.Gcn.aggregate (F := F) (Wp (Proc.devRef .tc main_v32)) (Wp (Proc.devRef .tc main_v3)) (Wp (Proc.devRef .tc main_v6)) (Wp (Proc.devRef .tc main_v31)) := by
  after_results_simp
  rfl

set_option maxHeartbeats 2000000 in
/-- The first layer's bias, reshaped to one row, holds the bias vector. -/
theorem bias1 (j : Fin 128) : (after hostOps1 Wp (Proc.devRef .tc main_v46) : Vec F S1x128 .f32) (ValueIdx.ix2 (0 : Fin 1) j)
    = (Wp (Proc.devRef .tc main_arg4) : Vec F S128 .f32) (ValueIdx.ix1 j) := by
  after_results
  exact shapeCast_apply _ _ _ _ (by
    show (S128.rowMajor (ValueIdx.ix1 j)).val = (S1x128.rowMajor (ValueIdx.ix2 (0 : Fin 1) j)).val
    rw [Shape.rowMajor_val_one, Shape.rowMajor_val_two]
    show j.val = (0 : Fin 1).val * _ + j.val
    simp)

set_option maxHeartbeats 2000000 in
/-- After the second layer's stretch the messages are aggregated from the transformed rows the stretch found. -/
theorem agg3 : after hostOps3 Wp (Proc.devRef .tc main_v61)
    = Cert.Gcn.aggregate (F := F) (Wp (Proc.devRef .tc main_v48)) (Wp (Proc.devRef .tc main_v3)) (Wp (Proc.devRef .tc main_v6)) (Wp (Proc.devRef .tc main_v31)) := by
  after_results_simp
  rfl

set_option maxHeartbeats 2000000 in
/-- The second layer's bias, reshaped to one row, holds the bias vector. -/
theorem bias3 (j : Fin 128) : (after hostOps3 Wp (Proc.devRef .tc main_v62) : Vec F S1x128 .f32) (ValueIdx.ix2 (0 : Fin 1) j)
    = (Wp (Proc.devRef .tc main_arg6) : Vec F S128 .f32) (ValueIdx.ix1 j) := by
  after_results
  exact shapeCast_apply _ _ _ _ (by
    show (S128.rowMajor (ValueIdx.ix1 j)).val = (S1x128.rowMajor (ValueIdx.ix2 (0 : Fin 1) j)).val
    rw [Shape.rowMajor_val_one, Shape.rowMajor_val_two]
    show j.val = (0 : Fin 1).val * _ + j.val
    simp)

/-! ## The last stretch: the mean over each graph; and the head's bias as one row -/

set_option maxHeartbeats 2000000 in
/-- After the last stretch the node rows the stretch found are averaged over each graph. -/
theorem pool4 : after hostOps4 Wp (Proc.devRef .tc main_v75)
    = Cert.Gcn.meanPool (F := F) (Wp (Proc.devRef .tc main_v63)) (Wp (Proc.devRef .tc main_arg2)) := by
  after_results_simp
  rfl

set_option maxHeartbeats 2000000 in
/-- The head's bias, reshaped to one row, holds the bias vector. -/
theorem bias4 (j : Fin 2) : (after hostOps4 Wp (Proc.devRef .tc main_v76) : Vec F S1x2 .f32) (ValueIdx.ix2 (0 : Fin 1) j)
    = (Wp (Proc.devRef .tc main_arg8) : Vec F S2 .f32) (ValueIdx.ix1 j) := by
  after_results
  exact shapeCast_apply _ _ _ _ (by
    show (S2.rowMajor (ValueIdx.ix1 j)).val = (S1x2.rowMajor (ValueIdx.ix2 (0 : Fin 1) j)).val
    rw [Shape.rowMajor_val_one, Shape.rowMajor_val_two]
    show j.val = (0 : Fin 1).val * _ + j.val
    simp)

end Cert.KernelIdeal.Stretch

end
-- ==== Proof.KNames.lean ====
/-
  Names for the values the kernel program's run carries from boundary to boundary: the edges' sources,
  destinations and weights of the edge list as launched, and the two layers' outputs; and that the
  stretches before the first region leave exactly those ends and weights in their buffers.
-/
import proofs.«162025_j21337397526641_1_alg».proof.Proof.Gen.KernelIdeal.Frame
import proofs.«162025_j21337397526641_1_alg».proof.Proof.Stretch

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The edges' sources, destinations and weights, of the edge list as launched. -/
abbrev src : Cert.Gcn.Arr Ideal Cert.ReferenceIdeal.S1700000 .i32 := Cert.Gcn.srcIdx (F := Ideal) (m ((c : Thread nD τ).loc main_arg1))
abbrev dst : Cert.Gcn.Arr Ideal Cert.ReferenceIdeal.S1700000 .i32 := Cert.Gcn.dstIdx (F := Ideal) (m ((c : Thread nD τ).loc main_arg1))
abbrev nrm : Cert.Gcn.Arr Ideal Cert.ReferenceIdeal.S1700000 .f32 := Cert.Gcn.edgeNorm (F := Ideal) (src m c) (dst m c)
/-- The first and the second layer's outputs. -/
abbrev x1 : Cert.Gcn.Arr Ideal Cert.ReferenceIdeal.S100000x128 .f32 :=
  Cert.Gcn.layer (F := Ideal) (m ((c : Thread nD τ).loc main_arg0)) (src m c) (dst m c) (nrm m c) (m ((c : Thread nD τ).loc main_arg3)) (m ((c : Thread nD τ).loc main_arg4))
abbrev x2 : Cert.Gcn.Arr Ideal Cert.ReferenceIdeal.S100000x128 .f32 :=
  Cert.Gcn.layer (F := Ideal) (x1 m c) (src m c) (dst m c) (nrm m c) (m ((c : Thread nD τ).loc main_arg5)) (m ((c : Thread nD τ).loc main_arg6))

/-- After the stretches before the first region the three edge buffers hold the ends and the weights. -/
theorem w3_v3 : W3 m ρ c (Proc.devRef .tc main_v3) = src m c := Stretch.pre_src (W0 m ρ c)
theorem w3_v6 : W3 m ρ c (Proc.devRef .tc main_v6) = dst m c := Stretch.pre_dst (W0 m ρ c)
theorem w3_v31 : W3 m ρ c (Proc.devRef .tc main_v31) = nrm m c := Stretch.pre_nrm (W0 m ρ c)

end Cert.KernelIdeal.KValue

end
-- ==== Proof.Lin0.lean ====
/- Region 0: ten row blocks of 10000 rows, each multiplied by the whole 128 × 128 matrix; together the output array is the whole product. -/
import proofs.«162025_j21337397526641_1_alg».proof.Proof.Gen.KernelIdeal.Frame
import proofs.«162025_j21337397526641_1_alg».proof.Proof.Gen.ReferenceIdeal
import proofs.«162025_j21337397526641_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin0

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

/-! ## A product of a block of rows with the matrix, read at an index

Both the whole product and a block's product are, at row `p` and column `q`, the sum over `k` of the row's entry `k`
times the matrix's entry `(k, q)`. The operand indices of each record are read axis by axis. -/

/- The whole product's record. -/
theorem lhs_whole_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_whole_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_whole_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_whole_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole product at row `p`, column `q`. -/
theorem lin_apply (x : Cert.Gcn.Arr Ideal Cert.ReferenceIdeal.S100000x128 .f32) (w : Cert.Gcn.Arr Ideal Cert.ReferenceIdeal.S128x128 .f32)
    (p : Fin 100000) (q : Fin 128) :
    Cert.Gcn.lin (F := Ideal) x w (ix2 p q) = ∑ k : Fin 128, x (ix2 p k) * w (ix2 k q) := by
  unfold Cert.Gcn.lin
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((ValueIdx.contrEquiv1 Cert.ReferenceIdeal.dot_S100000x128_S128x128_S100000x128_1_0_0_1_n_n 128 rfl rfl).symm k) = ix2 p k := funext fun a => Fin.ext (by
    match a with
    | ⟨0, _⟩ => exact lhs_whole_0 _ _
    | ⟨1, _⟩ => exact (lhs_whole_1 _ _).trans hk)
  have er : Cert.ReferenceIdeal.dot_S100000x128_S128x128_S100000x128_1_0_0_1_n_n.rhsIdx (ix2 p q) ((ValueIdx.contrEquiv1 Cert.ReferenceIdeal.dot_S100000x128_S128x128_S100000x128_1_0_0_1_n_n 128 rfl rfl).symm k) = ix2 k q := funext fun a => Fin.ext (by
    match a with
    | ⟨0, _⟩ => exact (rhs_whole_0 _ _).trans hk
    | ⟨1, _⟩ => exact rhs_whole_1 _ _)
  rw [el, er]

/- A block's record. -/
theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's value at row `p`, column `q` of its block: the narrowing of both operands (and a cast of a block to its own shape)
    is the identity on the ideal values, and the accumulator is zero. -/
theorem pay_apply (x0 : Vec Ideal S10000x128 .f32) (x1 : Vec Ideal S128x128 .f32) (p : Fin 10000) (q : Fin 128) :
    (k0_pay1 (F := Ideal) x0 x1) (ix2 p q) = ∑ k : Fin 128, x0 (ix2 p k) * x1 (ix2 k q) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_blk_0 _ _).trans hk
    | ⟨1, _⟩ => exact rhs_blk_1 _ _)
  simp only [ValueIdx.truncf_apply, shapeCast_self, el, er]

/-! ## From the blocks to the array

Point `t` of the grid takes the block of 10000 rows of the first array that starts at row `10000 · b`, `b` the point's block
index, and the whole matrix, and writes their product over the same rows of the output array. The ten blocks fill it. -/

theorem hz : (![0, 0] : Fin 2 → Nat) = fun _ => 0 := funext fun a => by fin_cases a <;> rfl

/-- The index maps over the grid: the row blocks read and written are the same one, every other block index is zero, and the
    written block index stays below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ (b : Fin 10), ∃ t : Fin cfg0.N, win0_2.index t = ![b.val, 0] :=
  (by decide +kernel : ∀ (b : Fin 10), ∃ t : Fin grid0.N, win0_2.index t = ![b.val, 0])

/- The contents of the core's buffers when the region is entered: a parameter. -/
variable (V : (c : Dev nD) → (b : Ref sig .tc) → Buf (Elt Ideal) ((c : Thread nD τ).loc b))

/-- What point `t` writes back is its block of the whole product. -/
theorem flushed_eq (c : Dev nD) (t : Fin cfg0.N) :
    (dat0 (F := Ideal) V c).flushed 2 t
      = ((cfg0.win 2).blk t).view.read (Elt Ideal) (Cert.Gcn.lin (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  refine funext fun (j : S10000x128.Idx) => ?_
  obtain ⟨p, q, rfl⟩ : ∃ (p : Fin 10000) (q : Fin 128), j = ix2 p q := ⟨j 0, j 1, eq_ix2 j⟩
  have hp : p.val < 10000 := p.isLt
  -- where the element sits in the output array
  have ho : ((cfg0.win 2).blk t).view.emb (ix2 p q)
      = ix2 (⟨win0_2.index t (0 : Fin 2) * 10000 + p.val, by omega⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show k0_pay1 (F := Ideal) (iblk0 V c 0 t) (iblk0 V c 1 t) (ix2 p q)
    = Cert.Gcn.lin (F := Ideal) (V c main_arg0) (V c main_arg3) (((cfg0.win 2).blk t).view.emb (ix2 p q))
  rw [ho, pay_apply, lin_apply]
  refine Finset.sum_congr rfl fun k _ => ?_
  have hk : k.val < 128 := k.isLt
  -- where the operands' elements sit in their arrays
  have h0 : ((cfg0.win 0).blk t).view.emb (ix2 p k)
      = ix2 (⟨win0_2.index t (0 : Fin 2) * 10000 + p.val, by omega⟩ : Fin 100000) k := by
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have a0 : iblk0 V c 0 t (ix2 p k) = V c main_arg0 (ix2 (⟨win0_2.index t (0 : Fin 2) * 10000 + p.val, by omega⟩ : Fin 100000) k) := by
    show V c main_arg0 (((cfg0.win 0).blk t).view.emb (ix2 p k)) = _
    rw [h0]
  have a1 : iblk0 V c 1 t (ix2 k q) = V c main_arg3 (ix2 k q) := by
    show V c main_arg3 (((cfg0.win 1).blk t).view.emb (ix2 k q)) = _
    rw [h1]
  rw [a0, a1]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every index of the array is in some point's block: row `r` in the block of index `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- Region 0 leaves the product of its two input arrays in its output array. -/
theorem arr_eq (c : Dev nD) :
    (dat0 (F := Ideal) V c).arrAt 2 cfg0.N = Cert.Gcn.lin (F := Ideal) (V c main_arg0) (V c main_arg3) := by
  exact (dat0 (F := Ideal) V c).arrAt_eq_of_cover 2 (Cert.Gcn.lin (F := Ideal) (V c main_arg0) (V c main_arg3))
    (fun t _ => flushed_eq V c t) cover

end Cert.KernelIdeal.Lin0

end
-- ==== Proof.BiasRelu1.lean ====
/- Region 1: ten row blocks of 10000 rows; to each the one bias row is added and the result clamped at zero from below. -/
import proofs.«162025_j21337397526641_1_alg».proof.Proof.Gen.KernelIdeal.Frame
import proofs.«162025_j21337397526641_1_alg».proof.Proof.Gen.ReferenceIdeal
import proofs.«162025_j21337397526641_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasRelu1

open Cert.KernelIdeal Cert.KernelIdeal.Gen Idealize.ShloMosaic Idealize.ShloMosaic.TcCoe Idealize.SL.Sem
open Idealize.ShloMosaic.Pipeline (Dat)

/- The contents of the core's buffers when the region is entered: a parameter. -/
variable (V : (c : Dev nD) → (b : Ref sig .tc) → Buf (Elt Ideal) ((c : Thread nD τ).loc b))

/-- The two zero offsets of a whole-block access, as the constant function. -/
theorem zero_off : (![0, 0] : Fin 2 → Nat) = fun _ => 0 := funext fun a => by fin_cases a <;> rfl

/-- The specification at an index: the entry plus the bias of its column, clamped at the zero word from below. -/
theorem biasRelu_apply (a : Cert.Gcn.Arr Ideal Cert.ReferenceIdeal.S100000x128 .f32) (b : Cert.Gcn.Arr Ideal Cert.ReferenceIdeal.S128 .f32)
    (r : Fin 100000) (j : Fin 128) :
    Cert.Gcn.biasRelu (F := Ideal) a b (ValueIdx.ix2 r j)
      = max (a (ValueIdx.ix2 r j) + b (ValueIdx.ix1 j)) (Ideal.ofBits .f32 0x00000000#32) := by
  unfold Cert.Gcn.biasRelu
  rw [ValueIdx.maximumf_apply, ValueIdx.addf_apply,
    broadcastInDim_apply ![0, 1] _ _ (ValueIdx.ix2 r j) (ValueIdx.ix2 (0 : Fin 1) j)
      (by intro a; match a with | ⟨0, _⟩ => rfl | ⟨1, _⟩ => rfl),
    broadcastInDim_apply ![1] _ b (ValueIdx.ix2 (0 : Fin 1) j) (ValueIdx.ix1 j)
      (by intro a; match a with | ⟨0, _⟩ => rfl),
    broadcastInDim_apply ![] _ _ (ValueIdx.ix2 r j) ValueIdx.ix0 (fun a => a.elim0),
    ValueIdx.constant_apply]

/-- The body's payload at an index of the block. -/
theorem pay_apply (x0 : Vec Ideal S10000x128 .f32) (x1 : Vec Ideal S1x128 .f32) (p : Fin 10000) (q : Fin 128) :
    (k1_pay1 (F := Ideal) x0 x1) (ValueIdx.ix2 p q)
      = max (x0 (ValueIdx.ix2 p q) + x1 (ValueIdx.ix2 (0 : Fin 1) q)) (Ideal.ofBits .f32 0x00000000#32) := by
  unfold k1_pay1
  rw [ValueIdx.maximumf_apply, ValueIdx.addf_apply, ValueIdx.broadcast_apply, shapeCast_self, shapeCast_self, shapeCast_self,
    broadcastTo_apply _ _ (ValueIdx.ix2 p q) (ValueIdx.ix2 (0 : Fin 1) q)
      (by intro a; match a with | ⟨0, _⟩ => rfl | ⟨1, _⟩ => rfl)]
  rfl

/-- The printed index maps over the grid: at point `t` the input's and the output's block is row block `t`, column block 0; the bias row's block is block 0 on both axes. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the specification's array. -/
theorem flushed_eq (c : Dev nD) (b : Cert.Gcn.Arr Ideal Cert.ReferenceIdeal.S128 .f32)
    (hb : ∀ j : Fin 128, (V c main_v46 : Vec Ideal S1x128 .f32) (ValueIdx.ix2 (0 : Fin 1) j) = b (ValueIdx.ix1 j))
    (t : Fin cfg1.N) :
    (dat1 (F := Ideal) V c).flushed 2 t
      = ((cfg1.win 2).blk t).view.read (Elt Ideal) (Cert.Gcn.biasRelu (F := Ideal) (V c main_v45) b) := by
  show (cfg1.win 2).cut (grid1.coords t) ((dat1 (F := Ideal) V c).after 2 t) = _
  rw [after1_2]
  unfold out1_2
  rw [View.canon_unit_zero zero_off]
  simp only [View.ld_unit_zero (S := S10000x128) zero_off, View.ld_unit_zero (S := S1x128) zero_off]
  obtain ⟨e0, e1, e2, e3, e4, e5⟩ := idx_facts t
  have ht : t.val < 10 := lt_of_lt_of_eq t.isLt N_1
  funext y
  obtain ⟨p, q, rfl⟩ : ∃ (p : Fin 10000) (q : Fin 128), y = ValueIdx.ix2 p q := ⟨y 0, y 1, ValueIdx.eq_ix2 y⟩
  -- where the block's element (p, q) sits in each array: row t·10000 + p, column q; the bias row's at (0, q)
  have hout : ((cfg1.win 2).blk t).view.emb (ValueIdx.ix2 p q)
      = ValueIdx.ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  have hin : ((cfg1.win 0).blk t).view.emb (ValueIdx.ix2 p q)
      = ValueIdx.ix2 (⟨t.val * 10000 + p.val, by omega⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have hrow : ((cfg1.win 1).blk t).view.emb (ValueIdx.ix2 (0 : Fin 1) q) = ValueIdx.ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  show k1_pay1 (F := Ideal) (iblk1 V c 0 t) (iblk1 V c 1 t) (ValueIdx.ix2 p q)
      = Cert.Gcn.biasRelu (F := Ideal) (V c main_v45) b (((cfg1.win 2).blk t).view.emb (ValueIdx.ix2 p q))
  rw [hout, pay_apply, biasRelu_apply]
  have h0 : iblk1 V c 0 t (ValueIdx.ix2 p q)
      = V c main_v45 (ValueIdx.ix2 (⟨t.val * 10000 + p.val, by omega⟩ : Fin 100000) q) := by
    show V c main_v45 (((cfg1.win 0).blk t).view.emb (ValueIdx.ix2 p q)) = _
    rw [hin]
  have h1 : iblk1 V c 1 t (ValueIdx.ix2 (0 : Fin 1) q) = b (ValueIdx.ix1 q) := by
    show V c main_v46 (((cfg1.win 1).blk t).view.emb (ValueIdx.ix2 (0 : Fin 1) q)) = _
    rw [hrow]; exact hb q
  rw [h0, h1]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- Every index of the output array is written back: row `r` lies in the block of point `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  have hlt : (i 0).val / 10000 < cfg1.N := by show (i 0).val / 10000 < grid1.N; omega
  obtain ⟨-, -, -, -, e4, e5⟩ := idx_facts ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    omega
  | ⟨1, _⟩ =>
    show win1_2.index ⟨(i 0).val / 10000, hlt⟩ (1 : Fin 2) * 128 ≤ (i 1).val
      ∧ (i 1).val < win1_2.index ⟨(i 0).val / 10000, hlt⟩ (1 : Fin 2) * 128 + 128
    omega

/-- Region 1 leaves `max (a + b, 0)` in its output array, `b` the bias vector whose one-row reshape the region reads. -/
theorem arr_eq (c : Dev nD) (b : Cert.Gcn.Arr Ideal Cert.ReferenceIdeal.S128 .f32)
    (hb : ∀ j : Fin 128, (V c main_v46 : Vec Ideal S1x128 .f32) (ValueIdx.ix2 (0 : Fin 1) j) = b (ValueIdx.ix1 j)) :
    (dat1 (F := Ideal) V c).arrAt 2 cfg1.N = Cert.Gcn.biasRelu (F := Ideal) (V c main_v45) b :=
  (dat1 (F := Ideal) V c).arrAt_eq_of_cover 2 (Cert.Gcn.biasRelu (F := Ideal) (V c main_v45) b)
    (fun t _ => flushed_eq V c b hb t) cover

end Cert.KernelIdeal.BiasRelu1

end
-- ==== Proof.Head4.lean ====
/- Region 4: one block, the 512 pooled rows times the 128 × 2 matrix plus the one bias row. -/
import proofs.«162025_j21337397526641_1_alg».proof.Proof.Gen.KernelIdeal.Frame
import proofs.«162025_j21337397526641_1_alg».proof.Proof.Gen.ReferenceIdeal
import proofs.«162025_j21337397526641_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head4

open Cert.KernelIdeal Cert.KernelIdeal.Gen Idealize.ShloMosaic Idealize.ShloMosaic.TcCoe Idealize.SL.Sem
open Idealize.ShloMosaic.Pipeline (Dat)
open Idealize.ShloMosaic.ValueIdx (ix1 ix2)

/-! ## The product's operand indices, axis by axis -/

/-- The left operand's row is the output's row. -/
theorem lhs_row (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
/-- The left operand's column is the summation index. -/
theorem lhs_col (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
/-- The right operand's row is the summation index. -/
theorem rhs_row (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
/-- The right operand's column is the output's column. -/
theorem rhs_col (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The region's matrix product into the zero accumulator, at row g and column j: the sum over k of the products. -/
theorem matmul_at {φ₁ φ₂ : FTy} (x0 : FVec Ideal S512x128 φ₁) (x1 : FVec Ideal S128x2 φ₂) (g : Fin 512) (j : Fin 2) :
    matmul dot_S512x128_S128x2_S512x2_1_0_0_1_n_n none x0 x1 (constant (F := Ideal) S512x2 .f32 0x00000000#32) (ix2 g j)
      = ∑ k : Fin 128, x0 (ix2 g k) * x1 (ix2 k j) := by
  simp only [matmul]
  rw [Ideal.matmul_constant_zero_apply, ← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx (ix2 g j) ((ValueIdx.contrEquiv1 dot_S512x128_S128x2_S512x2_1_0_0_1_n_n 128 rfl rfl).symm k) = ix2 g k := funext fun a => Fin.ext (by
    match a with
    | ⟨0, _⟩ => exact lhs_row _ _
    | ⟨1, _⟩ => exact (lhs_col _ _).trans hk)
  have er : dot_S512x128_S128x2_S512x2_1_0_0_1_n_n.rhsIdx (ix2 g j) ((ValueIdx.contrEquiv1 dot_S512x128_S128x2_S512x2_1_0_0_1_n_n 128 rfl rfl).symm k) = ix2 k j := funext fun a => Fin.ext (by
    match a with
    | ⟨0, _⟩ => exact (rhs_row _ _).trans hk
    | ⟨1, _⟩ => exact rhs_col _ _)
  rw [el, er]

/-- The 512 × 2 result at row g and column j, from the two matrices and the bias row: the sum over k of the
    products plus the row's entry. -/
theorem pay_at (x0 : Vec Ideal S512x128 .f32) (x1 : Vec Ideal S128x2 .f32) (x2 : Vec Ideal S1x2 .f32) (g : Fin 512) (j : Fin 2) :
    (k4_pay1 (F := Ideal) x0 x1 x2) (ix2 g j) = (∑ k : Fin 128, x0 (ix2 g k) * x1 (ix2 k j)) + x2 (ix2 (0 : Fin 1) j) := by
  unfold k4_pay1
  rw [shapeCast_self, shapeCast_self, shapeCast_self, ValueIdx.addf_apply, matmul_at,
    broadcastTo_apply x2 broadcasts_S1x2_S512x2 (ix2 g j) (ix2 (0 : Fin 1) j) (fun a => match a with
      | ⟨0, _⟩ => by show 0 = if (1 : Nat) = 1 then 0 else _; rw [if_pos rfl]
      | ⟨1, _⟩ => by show j.val = if (2 : Nat) = 1 then 0 else j.val; rw [if_neg (by decide)])]
  rfl

/-! ## The same product in the specification, over the reference's record -/

/-- The left operand's row is the output's row. -/
theorem ref_lhs_row (i : Cert.ReferenceIdeal.S512x2.Idx) (q : Cert.ReferenceIdeal.dot_S512x128_S128x2_S512x2_1_0_0_1_n_n.contr.Idx) :
    (Cert.ReferenceIdeal.dot_S512x128_S128x2_S512x2_1_0_0_1_n_n.lhsIdx i q 0).val = (i 0).val := by
  unfold DotDims.lhsIdx
  rw [dif_neg (show ¬(0 : Fin Cert.ReferenceIdeal.S512x128.rank) ∈ Cert.ReferenceIdeal.dot_S512x128_S128x2_S512x2_1_0_0_1_n_n.lhsBatch by decide), dif_pos (show (0 : Fin Cert.ReferenceIdeal.S512x128.rank) ∈ Cert.ReferenceIdeal.dot_S512x128_S128x2_S512x2_1_0_0_1_n_n.lhsNonContracting by decide)]
  rfl
/-- The left operand's column is the summation index. -/
theorem ref_lhs_col (i : Cert.ReferenceIdeal.S512x2.Idx) (q : Cert.ReferenceIdeal.dot_S512x128_S128x2_S512x2_1_0_0_1_n_n.contr.Idx) :
    (Cert.ReferenceIdeal.dot_S512x128_S128x2_S512x2_1_0_0_1_n_n.lhsIdx i q 1).val = (q ⟨0, by decide⟩).val :=
  Cert.ReferenceIdeal.dot_S512x128_S128x2_S512x2_1_0_0_1_n_n.lhsIdx_val_of_single rfl i q
/-- The right operand's row is the summation index. -/
theorem ref_rhs_row (i : Cert.ReferenceIdeal.S512x2.Idx) (q : Cert.ReferenceIdeal.dot_S512x128_S128x2_S512x2_1_0_0_1_n_n.contr.Idx) :
    (Cert.ReferenceIdeal.dot_S512x128_S128x2_S512x2_1_0_0_1_n_n.rhsIdx i q 0).val = (q ⟨0, by decide⟩).val :=
  Cert.ReferenceIdeal.dot_S512x128_S128x2_S512x2_1_0_0_1_n_n.rhsIdx_val_of_single rfl i q
/-- The right operand's column is the output's column. -/
theorem ref_rhs_col (i : Cert.ReferenceIdeal.S512x2.Idx) (q : Cert.ReferenceIdeal.dot_S512x128_S128x2_S512x2_1_0_0_1_n_n.contr.Idx) :
    (Cert.ReferenceIdeal.dot_S512x128_S128x2_S512x2_1_0_0_1_n_n.rhsIdx i q 1).val = (i 1).val := by
  unfold DotDims.rhsIdx
  rw [dif_neg (show ¬(1 : Fin Cert.ReferenceIdeal.S128x2.rank) ∈ Cert.ReferenceIdeal.dot_S512x128_S128x2_S512x2_1_0_0_1_n_n.rhsBatch by decide), dif_pos (show (1 : Fin Cert.ReferenceIdeal.S128x2.rank) ∈ Cert.ReferenceIdeal.dot_S512x128_S128x2_S512x2_1_0_0_1_n_n.rhsNonContracting by decide)]
  rfl

/-- The specification's product at row g and column j: the sum over k of the products. -/
theorem dot_at (p : FVec Ideal Cert.ReferenceIdeal.S512x128 .f32) (w : FVec Ideal Cert.ReferenceIdeal.S128x2 .f32)
    (g : Fin 512) (j : Fin 2) :
    Host.dotGeneral (F := Ideal) Cert.ReferenceIdeal.dot_S512x128_S128x2_S512x2_1_0_0_1_n_n none p w (ix2 g j)
      = ∑ k : Fin 128, p (ix2 g k) * w (ix2 k j) := by
  simp only [Host.dotGeneral]
  rw [Ideal.dotGeneral_apply, ← Equiv.sum_comp (ValueIdx.contrEquiv1 Cert.ReferenceIdeal.dot_S512x128_S128x2_S512x2_1_0_0_1_n_n 128 rfl rfl).symm]
  refine Finset.sum_congr rfl fun k _ => ?_
  have hk := ValueIdx.contrEquiv1_symm_val Cert.ReferenceIdeal.dot_S512x128_S128x2_S512x2_1_0_0_1_n_n 128 rfl rfl k
  have el : Cert.ReferenceIdeal.dot_S512x128_S128x2_S512x2_1_0_0_1_n_n.lhsIdx (ix2 g j) ((ValueIdx.contrEquiv1 Cert.ReferenceIdeal.dot_S512x128_S128x2_S512x2_1_0_0_1_n_n 128 rfl rfl).symm k) = ix2 g k := funext fun a => Fin.ext (by
    match a with
    | ⟨0, _⟩ => exact ref_lhs_row _ _
    | ⟨1, _⟩ => exact (ref_lhs_col _ _).trans hk)
  have er : Cert.ReferenceIdeal.dot_S512x128_S128x2_S512x2_1_0_0_1_n_n.rhsIdx (ix2 g j) ((ValueIdx.contrEquiv1 Cert.ReferenceIdeal.dot_S512x128_S128x2_S512x2_1_0_0_1_n_n 128 rfl rfl).symm k) = ix2 k j := funext fun a => Fin.ext (by
    match a with
    | ⟨0, _⟩ => exact (ref_rhs_row _ _).trans hk
    | ⟨1, _⟩ => exact ref_rhs_col _ _)
  rw [el, er]

/-- The specification at row g and column j: the same sum plus the bias vector's entry. -/
theorem head_at (p : Cert.Gcn.Arr Ideal Cert.ReferenceIdeal.S512x128 .f32) (w : Cert.Gcn.Arr Ideal Cert.ReferenceIdeal.S128x2 .f32)
    (b : Cert.Gcn.Arr Ideal Cert.ReferenceIdeal.S2 .f32) (g : Fin 512) (j : Fin 2) :
    Cert.Gcn.head (F := Ideal) p w b (ix2 g j) = (∑ k : Fin 128, p (ix2 g k) * w (ix2 k j)) + b (ix1 j) := by
  unfold Cert.Gcn.head
  rw [ValueIdx.addf_apply, dot_at,
    broadcastInDim_apply _ Cert.ReferenceIdeal.Facts₀.bcast_S1x2_S512x2_0_1 _ (ix2 g j) (ix2 (0 : Fin 1) j) (fun a => match a with
      | ⟨0, _⟩ => by show 0 = if (1 : Nat) = 1 then 0 else _; rw [if_pos rfl]
      | ⟨1, _⟩ => by show j.val = if (2 : Nat) = 1 then 0 else j.val; rw [if_neg (by decide)]),
    broadcastInDim_apply _ Cert.ReferenceIdeal.Facts₀.bcast_S2_S1x2_1 b (ix2 (0 : Fin 1) j) (ix1 j) (fun a => match a with
      | ⟨0, _⟩ => by show j.val = if (2 : Nat) = 1 then 0 else j.val; rw [if_neg (by decide)])]

/-! ## From the one block to the array -/

/- The contents of the core's buffers when the region is entered: a parameter. -/
variable (V : (c : Dev nD) → (b : Ref sig .tc) → Buf (Elt Ideal) ((c : Thread nD τ).loc b))

/-- Both offsets of the one block are zero. -/
theorem zeros2 : (![0, 0] : Fin 2 → Nat) = fun _ => 0 := funext fun a => by fin_cases a <;> rfl

/-- The one block of the pooled rows is their whole array. -/
theorem blk0_eq (c : Dev nD) (t : Fin cfg4.N) : (iblk4 (F := Ideal) V c 0 t : Vec Ideal S512x128 .f32) = V c main_v75 := by
  unfold iblk4
  funext y
  show V c main_v75 (((cfg4.win 0).blk t).view.emb y) = V c main_v75 y
  refine congrArg _ (funext fun a => Fin.ext ?_)
  match a with
  | ⟨0, _⟩ => show 0 * 512 + 1 * (y 0).val = (y 0).val; omega
  | ⟨1, _⟩ => show 0 * 128 + 1 * (y 1).val = (y 1).val; omega

/-- The one block of the 128 × 2 matrix is its whole array. -/
theorem blk1_eq (c : Dev nD) (t : Fin cfg4.N) : (iblk4 (F := Ideal) V c 1 t : Vec Ideal S128x2 .f32) = V c main_arg7 := by
  unfold iblk4
  funext y
  show V c main_arg7 (((cfg4.win 1).blk t).view.emb y) = V c main_arg7 y
  refine congrArg _ (funext fun a => Fin.ext ?_)
  match a with
  | ⟨0, _⟩ => show 0 * 128 + 1 * (y 0).val = (y 0).val; omega
  | ⟨1, _⟩ => show 0 * 2 + 1 * (y 1).val = (y 1).val; omega

/-- The one block of the bias row is its whole array. -/
theorem blk2_eq (c : Dev nD) (t : Fin cfg4.N) : (iblk4 (F := Ideal) V c 2 t : Vec Ideal S1x2 .f32) = V c main_v76 := by
  unfold iblk4
  funext y
  show V c main_v76 (((cfg4.win 2).blk t).view.emb y) = V c main_v76 y
  refine congrArg _ (funext fun a => Fin.ext ?_)
  match a with
  | ⟨0, _⟩ => show 0 * 1 + 1 * (y 0).val = (y 0).val; omega
  | ⟨1, _⟩ => show 0 * 2 + 1 * (y 1).val = (y 1).val; omega

/-- What the one point writes back is the whole of p · W + b. -/
theorem flushed_eq (c : Dev nD) (b : Cert.Gcn.Arr Ideal Cert.ReferenceIdeal.S2 .f32)
    (hb : ∀ j : Fin 2, (V c main_v76 : Vec Ideal S1x2 .f32) (ix2 (0 : Fin 1) j) = b (ix1 j)) (t : Fin cfg4.N) :
    (dat4 (F := Ideal) V c).flushed 3 t
      = ((cfg4.win 3).blk t).view.read (Elt Ideal) (Cert.Gcn.head (F := Ideal) (V c main_v75) (V c main_arg7) b) := by
  show (cfg4.win 3).cut (grid4.coords t) ((dat4 V c).after 3 t) = _
  rw [after4_3]
  unfold out4_3
  rw [View.canon_unit_zero zeros2]
  simp only [View.ld_unit_zero (S := S512x128) zeros2, View.ld_unit_zero (S := S128x2) zeros2, View.ld_unit_zero (S := S1x2) zeros2]
  rw [blk0_eq, blk1_eq, blk2_eq]
  funext y
  obtain ⟨g, j, rfl⟩ : ∃ (g : Fin 512) (j : Fin 2), y = ix2 g j := ⟨y 0, y 1, ValueIdx.eq_ix2 y⟩
  have e : ((cfg4.win 3).blk t).view.emb (ix2 g j) = ix2 g j := funext fun a => Fin.ext (by
    match a with
    | ⟨0, _⟩ => show 0 * 512 + 1 * g.val = g.val; omega
    | ⟨1, _⟩ => show 0 * 2 + 1 * j.val = j.val; omega)
  show k4_pay1 (F := Ideal) (V c main_v75) (V c main_arg7) (V c main_v76) (ix2 g j)
    = Cert.Gcn.head (F := Ideal) (V c main_v75) (V c main_arg7) b (((cfg4.win 3).blk t).view.emb (ix2 g j))
  rw [e, pay_at, head_at, hb]

/-- An index of the output array is in the one block iff each coordinate is in the block's range on its axis. -/
theorem mem_blk (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v77).slice (win4_3.rect t)).set ↔ _
  rw [View.set_slice_whole, Rect.mem_set_unit]
  exact Iff.rfl

/-- The one block covers the output array. -/
theorem cover (i : S512x2.Idx) : ∃ t : Fin cfg4.N, (cfg4.win 3).flush t = true ∧ i ∈ ((cfg4.win 3).blk t).view.set := by
  refine ⟨t4_0, flush4_3 t4_0, ?_⟩
  rw [mem_blk]
  intro a
  have h0 : (i 0).val < 512 := ValueIdx.idx2_lt0 i
  have h1 : (i 1).val < 2 := ValueIdx.idx2_lt1 i
  match a with
  | ⟨0, _⟩ => show 0 * 512 ≤ (i 0).val ∧ (i 0).val < 0 * 512 + 512; omega
  | ⟨1, _⟩ => show 0 * 2 ≤ (i 1).val ∧ (i 1).val < 0 * 2 + 2; omega

/-- Region 4 leaves `p · W + b` in its output array, `b` the bias vector whose one-row reshape the region reads. -/
theorem arr_eq (c : Dev nD) (b : Cert.Gcn.Arr Ideal Cert.ReferenceIdeal.S2 .f32)
    (hb : ∀ j : Fin 2, (V c main_v76 : Vec Ideal S1x2 .f32) (ValueIdx.ix2 (0 : Fin 1) j) = b (ValueIdx.ix1 j)) :
    (dat4 (F := Ideal) V c).arrAt 3 cfg4.N = Cert.Gcn.head (F := Ideal) (V c main_v75) (V c main_arg7) b :=
  (dat4 (F := Ideal) V c).arrAt_eq_of_cover 3 _ (fun t _ => flushed_eq V c b hb t) cover

end Cert.KernelIdeal.Head4

end
-- ==== Proof.KValue.lean ====
/-
  The kernel program's result as the network function of its arguments.

  The run passes eleven boundaries: three stretches of host operations, then region, stretch, region,
  region, stretch, region, stretch, region.  At each boundary the buffers that later items read hold:
  after the first stretches the edges' ends `src`, `dst` and weights `nrm`; after region 0 the transformed
  rows `x · W1`; after the next stretch their weighted sums over incoming edges and the bias as one row;
  after region 1 the first layer's output `x1`; after region 2 `x1 · W2`; then the same for the second layer,
  giving `x2`; after the last stretch the mean of `x2` over each graph; after region 4 the head's scores.
  Every argument array, and `src`, `dst`, `nrm`, pass unchanged through each item that does not write them.
-/
import proofs.«162025_j21337397526641_1_alg».proof.Proof.Gen.KernelIdeal.Frame
import proofs.«162025_j21337397526641_1_alg».proof.Proof.Stretch
import proofs.«162025_j21337397526641_1_alg».proof.Proof.KNames
import proofs.«162025_j21337397526641_1_alg».proof.Proof.Carry
import proofs.«162025_j21337397526641_1_alg».proof.Proof.Lin0
import proofs.«162025_j21337397526641_1_alg».proof.Proof.Lin2
import proofs.«162025_j21337397526641_1_alg».proof.Proof.BiasRelu1
import proofs.«162025_j21337397526641_1_alg».proof.Proof.BiasRelu3
import proofs.«162025_j21337397526641_1_alg».proof.Proof.Head4

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 4: after region 0, the transformed rows -/

theorem w4_v32 : W4 m ρ c (Proc.devRef .tc main_v32) = Cert.Gcn.lin (F := Ideal) (m ((c : Thread nD τ).loc main_arg0)) (m ((c : Thread nD τ).loc main_arg3)) := by
  refine (W4_arr m ρ c 2).trans ((Lin0.arr_eq (V3 m ρ) c).trans ?_)
  show Cert.Gcn.lin (F := Ideal) (W3 m ρ c (Proc.devRef .tc main_arg0)) (W3 m ρ c (Proc.devRef .tc main_arg3)) = _
  rw [w3_arg0, w3_arg3]

/-! ## Boundary 5: after the first layer's stretch, the aggregated messages and the bias as one row -/

theorem w5_v45 : W5 m ρ c (Proc.devRef .tc main_v45)
    = Cert.Gcn.aggregate (F := Ideal) (Cert.Gcn.lin (F := Ideal) (m ((c : Thread nD τ).loc main_arg0)) (m ((c : Thread nD τ).loc main_arg3))) (src m c) (dst m c) (nrm m c) := by
  refine (Stretch.agg1 (W4 m ρ c)).trans ?_
  rw [w4_v32, w4_v3, w4_v6, w4_v31]
theorem w5_v46 (j : Fin 128) : (W5 m ρ c (Proc.devRef .tc main_v46) : Vec Ideal S1x128 .f32) (ValueIdx.ix2 (0 : Fin 1) j)
    = ((m ((c : Thread nD τ).loc main_arg4)) : Vec Ideal S128 .f32) (ValueIdx.ix1 j) := by
  refine (Stretch.bias1 (W4 m ρ c) j).trans ?_
  rw [w4_arg4]

/-! ## Boundary 6: after region 1, the first layer's output -/

theorem w6_v47 : W6 m ρ c (Proc.devRef .tc main_v47) = x1 m c := by
  refine (W6_arr m ρ c 2).trans ((BiasRelu1.arr_eq (V5 m ρ) c (m ((c : Thread nD τ).loc main_arg4)) (w5_v46 m ρ c)).trans ?_)
  show Cert.Gcn.biasRelu (F := Ideal) (W5 m ρ c (Proc.devRef .tc main_v45)) (m ((c : Thread nD τ).loc main_arg4)) = _
  rw [w5_v45]
  rfl

/-! ## Boundary 7: after region 2, the second layer's transformed rows -/

theorem w7_v48 : W7 m ρ c (Proc.devRef .tc main_v48) = Cert.Gcn.lin (F := Ideal) (x1 m c) (m ((c : Thread nD τ).loc main_arg5)) := by
  refine (W7_arr m ρ c 2).trans ((Lin2.arr_eq (V6 m ρ) c).trans ?_)
  show Cert.Gcn.lin (F := Ideal) (W6 m ρ c (Proc.devRef .tc main_v47)) (W6 m ρ c (Proc.devRef .tc main_arg5)) = _
  rw [w6_v47, w6_arg5]

/-! ## Boundary 8: after the second layer's stretch -/

theorem w8_v61 : W8 m ρ c (Proc.devRef .tc main_v61)
    = Cert.Gcn.aggregate (F := Ideal) (Cert.Gcn.lin (F := Ideal) (x1 m c) (m ((c : Thread nD τ).loc main_arg5))) (src m c) (dst m c) (nrm m c) := by
  refine (Stretch.agg3 (W7 m ρ c)).trans ?_
  rw [w7_v48, w7_v3, w7_v6, w7_v31]
theorem w8_v62 (j : Fin 128) : (W8 m ρ c (Proc.devRef .tc main_v62) : Vec Ideal S1x128 .f32) (ValueIdx.ix2 (0 : Fin 1) j)
    = ((m ((c : Thread nD τ).loc main_arg6)) : Vec Ideal S128 .f32) (ValueIdx.ix1 j) := by
  refine (Stretch.bias3 (W7 m ρ c) j).trans ?_
  rw [w7_arg6]

/-! ## Boundary 9: after region 3, the second layer's output -/

theorem w9_v63 : W9 m ρ c (Proc.devRef .tc main_v63) = x2 m c := by
  refine (W9_arr m ρ c 2).trans ((BiasRelu3.arr_eq (V8 m ρ) c (m ((c : Thread nD τ).loc main_arg6)) (w8_v62 m ρ c)).trans ?_)
  show Cert.Gcn.biasRelu (F := Ideal) (W8 m ρ c (Proc.devRef .tc main_v61)) (m ((c : Thread nD τ).loc main_arg6)) = _
  rw [w8_v61]
  rfl

/-! ## Boundary 10: after the last stretch, the mean over each graph -/

theorem w10_v75 : W10 m ρ c (Proc.devRef .tc main_v75) = Cert.Gcn.meanPool (F := Ideal) (x2 m c) (m ((c : Thread nD τ).loc main_arg2)) := by
  refine (Stretch.pool4 (W9 m ρ c)).trans ?_
  rw [w9_v63, w9_arg2]
theorem w10_v76 (j : Fin 2) : (W10 m ρ c (Proc.devRef .tc main_v76) : Vec Ideal S1x2 .f32) (ValueIdx.ix2 (0 : Fin 1) j)
    = ((m ((c : Thread nD τ).loc main_arg8)) : Vec Ideal S2 .f32) (ValueIdx.ix1 j) := by
  refine (Stretch.bias4 (W9 m ρ c) j).trans ?_
  rw [w9_arg8]

/-! ## Boundary 11: after region 4, the result -/

/-- The result buffer after the run holds the network function of the nine argument arrays as launched. -/
theorem result_eq : W11 m ρ c (Proc.devRef .tc main_v77)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((Head4.arr_eq (V10 m ρ) c (m ((c : Thread nD τ).loc main_arg8)) (w10_v76 m ρ c)).trans ?_)
  show Cert.Gcn.head (F := Ideal) (W10 m ρ c (Proc.devRef .tc main_v75)) (W10 m ρ c (Proc.devRef .tc main_arg7)) (m ((c : Thread nD τ).loc main_arg8)) = _
  rw [w10_v75, w10_arg7]
  rfl

end Cert.KernelIdeal.KValue

end
-- ==== Proof.RefSide.lean ====
/-
  The reference program's result, as its run states it, is the network function of the argument arrays:
  the run's composed term is the nest of the same stages.
-/
import proofs.«162025_j21337397526641_1_alg».proof.Proof.RefRun
import proofs.«162025_j21337397526641_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's composed result term is `gcn` of the launch contents of its nine arguments. -/
theorem result_eq (m : (ℓ : Loc nD τ sig) → Buf (Elt F) ℓ) (c : Dev nD) :
    Cert.ReferenceIdeal.Value.res_main_v83 (F := F) m c
      = Cert.Gcn.gcn (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.Value.res_main_v83 Cert.Gcn.gcn Cert.Gcn.layer Cert.Gcn.head Cert.Gcn.meanPool Cert.Gcn.biasRelu Cert.Gcn.lin
    Cert.Gcn.aggregate Cert.Gcn.edgeNorm Cert.Gcn.degInvSqrt Cert.Gcn.wrapCol Cert.Gcn.srcIdx Cert.Gcn.dstIdx Cert.Gcn.endsOf
  rfl

end Cert.ReferenceIdeal.RefValue

end
-- ==== Proof.lean ====
/-
  The kernel program computes a two-layer graph convolution with a mean over each graph and an affine head;
  so does the reference.  Both keep the irregular part — the edges' ends with self loops, the degree
  normalisation `deg ^ (-1/2)` at both ends of an edge, the gather of source rows, the scatter-add into
  destination rows, the per-graph mean — as the same tensor operations on the host.  They differ only where
  the kernel program runs a region: `x · W` computed ten row blocks at a time (its operands cast to a
  narrower float format first, which changes nothing over the extended reals) against one whole matrix
  product; `max (a + b, 0)` block by block against the whole-array sum and maximum; and `p · W + b` in one
  block against the whole product and sum.

  Over the extended reals a block's product at row `r`, column `j` is the same sum over `k` of
  `x (r, k) · W (k, j)` as the whole product's, and the blocks tile the array, so each region's output array
  is the reference's operation of the region's input arrays.  Carried through the eleven boundaries of the
  run this makes the kernel program's result the network function `gcn` of the nine argument arrays
  (Proof/KValue.lean); the reference's composed result term is the same `gcn` (Proof/RefSide.lean).  No law
  that needs finite entries is used: the precondition is never opened.

  The three frames: the two kernel programs' are the launch over their five regions and six stretches; the
  reference's is its run with the result dropped.  The idealization rewrote no operation, so nothing is
  owed for it.
-/
import proofs.«162025_j21337397526641_1_alg».proof.Defs
import proofs.«162025_j21337397526641_1_alg».proof.Proof.Gen.Kernel
import proofs.«162025_j21337397526641_1_alg».proof.Proof.Gen.Kernel.Frame
import proofs.«162025_j21337397526641_1_alg».proof.Proof.Gen.KernelIdeal
import proofs.«162025_j21337397526641_1_alg».proof.Proof.Gen.KernelIdeal.Frame
import proofs.«162025_j21337397526641_1_alg».proof.Proof.Gen.ReferenceIdeal
import proofs.«162025_j21337397526641_1_alg».proof.Proof.Gen.Pre_finite_inputs
import proofs.«162025_j21337397526641_1_alg».proof.Proof.KRun
import proofs.«162025_j21337397526641_1_alg».proof.Proof.KValue
import proofs.«162025_j21337397526641_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `gcn` of the (agreeing) argument arrays in their result buffers. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
